-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v30) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x2048 : Shape := ⟨2, ![4096, 2048]⟩
abbrev S_ : Shape := ⟨0, ![]⟩

class Facts : Prop where
  bcast_S_S4096x2048 : S_.BroadcastsInDim S4096x2048 (![] : Fin 0 → Fin S4096x2048.rank)
  reducesTo_S4096x2048_S_d0_1 : S4096x2048.ReducesTo [0, 1] S_
  h_S_ : 0 < S_.numel

variable [Facts]

def fn_part1 {F : FTy → Type} [FloatOps F] (main_arg4 : FVec F S4096x2048 .f32) (main_arg5 : FVec F S4096x2048 .f32) (main_arg6 : FVec F S4096x2048 .f32) (main_v13 : IVec S_ 1) (main_v16 : IVec S4096x2048 1) : IVec S_ 1 :=
  let main_c_5 : IVec S_ 1 := constantI S_ 1 1#1
  let main_v17 : IVec S_ 1 := (fun x v => Host.reduce IntOp.andi x v reducesTo_S4096x2048_S_d0_1 h_S_) main_v16 main_c_5
  let main_v18 : IVec S_ 1 := andi main_v13 main_v17
  let main_v19 : FVec F S4096x2048 .f32 := Host.absf main_arg4
  let main_cst_6 : FVec F S_ .f32 := constant S_ .f32 0x7F800000#32
  let main_v20 : FVec F S4096x2048 .f32 := broadcastInDim S4096x2048 ![] bcast_S_S4096x2048 main_cst_6
  let main_v21 : IVec S4096x2048 1 := cmpf .olt main_v19 main_v20
  let main_c_7 : IVec S_ 1 := constantI S_ 1 1#1
  let main_v22 : IVec S_ 1 := (fun x v => Host.reduce IntOp.andi x v reducesTo_S4096x2048_S_d0_1 h_S_) main_v21 main_c_7
  let main_v23 : IVec S_ 1 := andi main_v18 main_v22
  let main_v24 : FVec F S4096x2048 .f32 := Host.absf main_arg5
  let main_cst_8 : FVec F S_ .f32 := constant S_ .f32 0x7F800000#32
  let main_v25 : FVec F S4096x2048 .f32 := broadcastInDim S4096x2048 ![] bcast_S_S4096x2048 main_cst_8
  let main_v26 : IVec S4096x2048 1 := cmpf .olt main_v24 main_v25
  let main_c_9 : IVec S_ 1 := constantI S_ 1 1#1
  let main_v27 : IVec S_ 1 := (fun x v => Host.reduce IntOp.andi x v reducesTo_S4096x2048_S_d0_1 h_S_) main_v26 main_c_9
  let main_v28 : IVec S_ 1 := andi main_v23 main_v27
  let main_v29 : FVec F S4096x2048 .f32 := Host.absf main_arg6
  let main_cst_10 : FVec F S_ .f32 := constant S_ .f32 0x7F800000#32
  let main_v30 : FVec F S4096x2048 .f32 := broadcastInDim S4096x2048 ![] bcast_S_S4096x2048 main_cst_10
  let main_v31 : IVec S4096x2048 1 := cmpf .olt main_v29 main_v30
  let main_c_11 : IVec S_ 1 := constantI S_ 1 1#1
  let main_v32 : IVec S_ 1 := (fun x v => Host.reduce IntOp.andi x v reducesTo_S4096x2048_S_d0_1 h_S_) main_v31 main_c_11
  let main_v33 : IVec S_ 1 := andi main_v28 main_v32
  main_v33

def fn {F : FTy → Type} [FloatOps F] (main_arg0 : FVec F S4096x2048 .f32) (main_arg1 : FVec F S4096x2048 .f32) (main_arg2 : FVec F S4096x2048 .f32) (main_arg3 : FVec F S4096x2048 .f32) (main_arg4 : FVec F S4096x2048 .f32) (main_arg5 : FVec F S4096x2048 .f32) (main_arg6 : FVec F S4096x2048 .f32) : IVec S_ 1 :=
  let main_v0 : FVec F S4096x2048 .f32 := Host.absf main_arg0
  let main_cst : FVec F S_ .f32 := constant S_ .f32 0x7F800000#32
  let main_v1 : FVec F S4096x2048 .f32 := broadcastInDim S4096x2048 ![] bcast_S_S4096x2048 main_cst
  let main_v2 : IVec S4096x2048 1 := cmpf .olt main_v0 main_v1
  let main_c : IVec S_ 1 := constantI S_ 1 1#1
  let main_v3 : IVec S_ 1 := (fun x v => Host.reduce IntOp.andi x v reducesTo_S4096x2048_S_d0_1 h_S_) main_v2 main_c
  let main_v4 : FVec F S4096x2048 .f32 := Host.absf main_arg1
  let main_cst_0 : FVec F S_ .f32 := constant S_ .f32 0x7F800000#32
  let main_v5 : FVec F S4096x2048 .f32 := broadcastInDim S4096x2048 ![] bcast_S_S4096x2048 main_cst_0
  let main_v6 : IVec S4096x2048 1 := cmpf .olt main_v4 main_v5
  let main_c_1 : IVec S_ 1 := constantI S_ 1 1#1
  let main_v7 : IVec S_ 1 := (fun x v => Host.reduce IntOp.andi x v reducesTo_S4096x2048_S_d0_1 h_S_) main_v6 main_c_1
  let main_v8 : IVec S_ 1 := andi main_v3 main_v7
  let main_v9 : FVec F S4096x2048 .f32 := Host.absf main_arg2
  let main_cst_2 : FVec F S_ .f32 := constant S_ .f32 0x7F800000#32
  let main_v10 : FVec F S4096x2048 .f32 := broadcastInDim S4096x2048 ![] bcast_S_S4096x2048 main_cst_2
  let main_v11 : IVec S4096x2048 1 := cmpf .olt main_v9 main_v10
  let main_c_3 : IVec S_ 1 := constantI S_ 1 1#1
  let main_v12 : IVec S_ 1 := (fun x v => Host.reduce IntOp.andi x v reducesTo_S4096x2048_S_d0_1 h_S_) main_v11 main_c_3
  let main_v13 : IVec S_ 1 := andi main_v8 main_v12
  let main_v14 : FVec F S4096x2048 .f32 := Host.absf main_arg3
  let main_cst_4 : FVec F S_ .f32 := constant S_ .f32 0x7F800000#32
  let main_v15 : FVec F S4096x2048 .f32 := broadcastInDim S4096x2048 ![] bcast_S_S4096x2048 main_cst_4
  let main_v16 : IVec S4096x2048 1 := cmpf .olt main_v14 main_v15
  fn_part1 (F := F) main_arg4 main_arg5 main_arg6 main_v13 main_v16
-- ==== Kernel.lean ====
abbrev S4096x2048 : Shape := ⟨2, ![4096, 2048]⟩
abbrev S4096x1 : Shape := ⟨2, ![4096, 1]⟩
abbrev S128x2048 : Shape := ⟨2, ![128, 2048]⟩
abbrev S128x1 : Shape := ⟨2, ![128, 1]⟩
abbrev S128 : Shape := ⟨1, ![128]⟩
abbrev S1x1 : Shape := ⟨2, ![1, 1]⟩
abbrev S_ : Shape := ⟨0, ![]⟩

abbrev nBuf : Space → Nat
  | .hbm => 10
  | .vmem => 16
  | .smem => 0
  | _ => 0

abbrev bufTy : (tb : Table) → Fin (tcTables nBuf tb) → BufTy
  | .hbm, ⟨0, _⟩ => ⟨S4096x2048, .f32⟩
  | .hbm, ⟨1, _⟩ => ⟨S4096x2048, .f32⟩
  | .hbm, ⟨2, _⟩ => ⟨S4096x2048, .f32⟩
  | .hbm, ⟨3, _⟩ => ⟨S4096x2048, .f32⟩
  | .hbm, ⟨4, _⟩ => ⟨S4096x2048, .f32⟩
  | .hbm, ⟨5, _⟩ => ⟨S4096x2048, .f32⟩
  | .hbm, ⟨6, _⟩ => ⟨S4096x2048, .f32⟩
  | .hbm, ⟨7, _⟩ => ⟨S4096x1, .f32⟩
  | .hbm, ⟨8, _⟩ => ⟨S1x1, .f32⟩
  | .hbm, ⟨9, _⟩ => ⟨S_, .f32⟩
  | .local _ .vmem, ⟨0, _⟩ => ⟨S128x2048, .f32⟩
  | .local _ .vmem, ⟨1, _⟩ => ⟨S128x2048, .f32⟩
  | .local _ .vmem, ⟨2, _⟩ => ⟨S128x2048, .f32⟩
  | .local _ .vmem, ⟨3, _⟩ => ⟨S128x2048, .f32⟩
  | .local _ .vmem, ⟨4, _⟩ => ⟨S128x2048, .f32⟩
  | .local _ .vmem, ⟨5, _⟩ => ⟨S128x2048, .f32⟩
  | .local _ .vmem, ⟨6, _⟩ => ⟨S128x2048, .f32⟩
  | .local _ .vmem, ⟨7, _⟩ => ⟨S128x2048, .f32⟩
  | .local _ .vmem, ⟨8, _⟩ => ⟨S128x2048, .f32⟩
  | .local _ .vmem, ⟨9, _⟩ => ⟨S128x2048, .f32⟩
  | .local _ .vmem, ⟨10, _⟩ => ⟨S128x2048, .f32⟩
  | .local _ .vmem, ⟨11, _⟩ => ⟨S128x2048, .f32⟩
  | .local _ .vmem, ⟨12, _⟩ => ⟨S128x2048, .f32⟩
  | .local _ .vmem, ⟨13, _⟩ => ⟨S128x2048, .f32⟩
  | .local _ .vmem, ⟨14, _⟩ => ⟨S128x1, .f32⟩
  | .local _ .vmem, ⟨15, _⟩ => ⟨S128x1, .f32⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S128x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S128x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S128x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S128x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S128x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S128x1 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

class Facts₀ : Prop where
  inb_S128x2048_S128x2048_0_0 : ∀ a, (![0, 0] : Fin 2 → Nat) a + S128x2048.size a ≤ S128x2048.size a
  h_S128x2048 : 0 < S128x2048.numel
  reduces_S128x2048_S128 : S128x2048.Reduces [1] S128
  shapeCasts_S128_S128x1 : S128.ShapeCasts S128x1
  broadcasts_S128x1_S128x2048 : S128x1.Broadcasts S128x2048
  inb_S128x1_S128x1_0_0 : ∀ a, (![0, 0] : Fin 2 → Nat) a + S128x1.size a ≤ S128x1.size a
  h_S128x1 : 0 < S128x1.numel
  slices_S4096x1_S1x1_4095_0 : S4096x1.Slices ![4095, 0] S1x1
  shapeCasts_S1x1_S_ : S1x1.ShapeCasts S_
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S128x2048.size a ≤ S4096x2048.size a
  hwx0_0 : ∀ i : grid0.Coords, EltTy.bits .f32 = 32 ∨ (Rect.block (s := S4096x2048) S128x2048.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S128x2048.size a ≤ S4096x2048.size a
  hwx0_1 : ∀ i : grid0.Coords, EltTy.bits .f32 = 32 ∨ (Rect.block (s := S4096x2048) S128x2048.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S128x2048.size a ≤ S4096x2048.size a
  hwx0_2 : ∀ i : grid0.Coords, EltTy.bits .f32 = 32 ∨ (Rect.block (s := S4096x2048) S128x2048.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S128x2048.size a ≤ S4096x2048.size a
  hwx0_3 : ∀ i : grid0.Coords, EltTy.bits .f32 = 32 ∨ (Rect.block (s := S4096x2048) S128x2048.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S128x2048.size a ≤ S4096x2048.size a
  hwx0_4 : ∀ i : grid0.Coords, EltTy.bits .f32 = 32 ∨ (Rect.block (s := S4096x2048) S128x2048.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S128x2048.size a ≤ S4096x2048.size a
  hwx0_5 : ∀ i : grid0.Coords, EltTy.bits .f32 = 32 ∨ (Rect.block (s := S4096x2048) S128x2048.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S128x2048.size a ≤ S4096x2048.size a
  hwx0_6 : ∀ i : grid0.Coords, EltTy.bits .f32 = 32 ∨ (Rect.block (s := S4096x2048) S128x2048.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S128x1.size a ≤ S4096x1.size a
  hwx0_7 : ∀ i : grid0.Coords, EltTy.bits .f32 = 32 ∨ (Rect.block (s := S4096x1) S128x1.size (cc0_transform_7 i) (hinb0_7 i)).WholeWords (EltTy.packing .f32)

variable [Facts₀]

abbrev win0_0 : Pipeline.Window sig grid0 :=
  Pipeline.Window.ofSpec (Memref.whole main_arg0) S128x2048.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S128x2048.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S128x2048.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S128x2048.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S128x2048.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_arg5) S128x2048.size cc0_transform_5 reads0_5 false false 2 stage0_5 sem0_5
    hrank0 hreads0_5 hinb0_5 nbuf0_5 (Memref.isWhole_whole _) hwx0_5 hstage0_5

abbrev win0_6 : Pipeline.Window sig grid0 :=
  Pipeline.Window.ofSpec (Memref.whole main_arg6) S128x2048.size cc0_transform_6 reads0_6 false false 2 stage0_6 sem0_6
    hrank0 hreads0_6 hinb0_6 nbuf0_6 (Memref.isWhole_whole _) hwx0_6 hstage0_6

abbrev win0_7 : Pipeline.Window sig grid0 :=
  Pipeline.Window.ofSpec (Memref.whole main_v0) S128x1.size cc0_transform_7 reads0_7 true false 2 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

class Facts : Prop extends Facts₀ where

variable [Facts]
-- ==== ReferenceIdeal.lean ====
abbrev S4096x2048 : Shape := ⟨2, ![4096, 2048]⟩
abbrev S_ : Shape := ⟨0, ![]⟩
abbrev S4096 : Shape := ⟨1, ![4096]⟩
abbrev S4096x1 : Shape := ⟨2, ![4096, 1]⟩
abbrev S1 : Shape := ⟨1, ![1]⟩

abbrev nBuf : Space → Nat
  | .hbm => 73
  | .vmem => 0
  | .smem => 0
  | _ => 0

abbrev bufTy : (tb : Table) → Fin (tcTables nBuf tb) → BufTy
  | .hbm, ⟨0, _⟩ => ⟨S4096x2048, .f32⟩
  | .hbm, ⟨1, _⟩ => ⟨S4096x2048, .f32⟩
  | .hbm, ⟨2, _⟩ => ⟨S4096x2048, .f32⟩
  | .hbm, ⟨3, _⟩ => ⟨S4096x2048, .f32⟩
  | .hbm, ⟨4, _⟩ => ⟨S4096x2048, .f32⟩
  | .hbm, ⟨5, _⟩ => ⟨S4096x2048, .f32⟩
  | .hbm, ⟨6, _⟩ => ⟨S4096x2048, .f32⟩
  | .hbm, ⟨7, _⟩ => ⟨S4096x2048, .f32⟩
  | .hbm, ⟨8, _⟩ => ⟨S4096x2048, .f32⟩
  | .hbm, ⟨9, _⟩ => ⟨S4096x2048, .f32⟩
  | .hbm, ⟨10, _⟩ => ⟨S4096x2048, .f32⟩
  | .hbm, ⟨11, _⟩ => ⟨S4096x2048, .f32⟩
  | .hbm, ⟨12, _⟩ => ⟨S4096x2048, .f32⟩
  | .hbm, ⟨13, _⟩ => ⟨S_, .f32⟩
  | .hbm, ⟨14, _⟩ => ⟨S4096, .f32⟩
  | .hbm, ⟨15, _⟩ => ⟨S_, .f32⟩
  | .hbm, ⟨16, _⟩ => ⟨S4096, .f32⟩
  | .hbm, ⟨17, _⟩ => ⟨S4096, .f32⟩
  | .hbm, ⟨18, _⟩ => ⟨S4096x1, .f32⟩
  | .hbm, ⟨19, _⟩ => ⟨S4096x2048, .f32⟩
  | .hbm, ⟨20, _⟩ => ⟨S4096x2048, .f32⟩
  | .hbm, ⟨21, _⟩ => ⟨S4096x2048, .f32⟩
  | .hbm, ⟨22, _⟩ => ⟨S_, .f32⟩
  | .hbm, ⟨23, _⟩ => ⟨S4096, .f32⟩
  | .hbm, ⟨24, _⟩ => ⟨S4096x1, .f32⟩
  | .hbm, ⟨25, _⟩ => ⟨S4096x1, .f32⟩
  | .hbm, ⟨26, _⟩ => ⟨S4096x2048, .f32⟩
  | .hbm, ⟨27, _⟩ => ⟨S4096x2048, .f32⟩
  | .hbm, ⟨28, _⟩ => ⟨S_, .f32⟩
  | .hbm, ⟨29, _⟩ => ⟨S4096, .f32⟩
  | .hbm, ⟨30, _⟩ => ⟨S_, .f32⟩
  | .hbm, ⟨31, _⟩ => ⟨S4096, .f32⟩
  | .hbm, ⟨32, _⟩ => ⟨S4096, .f32⟩
  | .hbm, ⟨33, _⟩ => ⟨S4096x1, .f32⟩
  | .hbm, ⟨34, _⟩ => ⟨S4096x2048, .f32⟩
  | .hbm, ⟨35, _⟩ => ⟨S4096x2048, .f32⟩
  | .hbm, ⟨36, _⟩ => ⟨S4096x2048, .f32⟩
  | .hbm, ⟨37, _⟩ => ⟨S_, .f32⟩
  | .hbm, ⟨38, _⟩ => ⟨S4096, .f32⟩
  | .hbm, ⟨39, _⟩ => ⟨S4096x1, .f32⟩
  | .hbm, ⟨40, _⟩ => ⟨S4096x1, .f32⟩
  | .hbm, ⟨41, _⟩ => ⟨S4096x2048, .f32⟩
  | .hbm, ⟨42, _⟩ => ⟨S4096x2048, .f32⟩
  | .hbm, ⟨43, _⟩ => ⟨S4096x2048, .f32⟩
  | .hbm, ⟨44, _⟩ => ⟨S4096x2048, .f32⟩
  | .hbm, ⟨45, _⟩ => ⟨S4096x2048, .f32⟩
  | .hbm, ⟨46, _⟩ => ⟨S_, .f32⟩
  | .hbm, ⟨47, _⟩ => ⟨S4096, .f32⟩
  | .hbm, ⟨48, _⟩ => ⟨S_, .f32⟩
  | .hbm, ⟨49, _⟩ => ⟨S4096, .f32⟩
  | .hbm, ⟨50, _⟩ => ⟨S4096, .f32⟩
  | .hbm, ⟨51, _⟩ => ⟨S4096x2048, .f32⟩
  | .hbm, ⟨52, _⟩ => ⟨S_, .f32⟩
  | .hbm, ⟨53, _⟩ => ⟨S4096, .f32⟩
  | .hbm, ⟨54, _⟩ => ⟨S_, .f32⟩
  | .hbm, ⟨55, _⟩ => ⟨S4096, .f32⟩
  | .hbm, ⟨56, _⟩ => ⟨S4096, .f32⟩
  | .hbm, ⟨57, _⟩ => ⟨S4096x2048, .f32⟩
  | .hbm, ⟨58, _⟩ => ⟨S4096x2048, .f32⟩
  | .hbm, ⟨59, _⟩ => ⟨S4096x2048, .f32⟩
  | .hbm, ⟨60, _⟩ => ⟨S_, .f32⟩
  | .hbm, ⟨61, _⟩ => ⟨S4096, .f32⟩
  | .hbm, ⟨62, _⟩ => ⟨S4096, .f32⟩
  | .hbm, ⟨63, _⟩ => ⟨S_, .f32⟩
  | .hbm, ⟨64, _⟩ => ⟨S4096, .f32⟩
  | .hbm, ⟨65, _⟩ => ⟨S4096, .f32⟩
  | .hbm, ⟨66, _⟩ => ⟨S_, .f32⟩
  | .hbm, ⟨67, _⟩ => ⟨S4096, .f32⟩
  | .hbm, ⟨68, _⟩ => ⟨S4096, .f32⟩
  | .hbm, ⟨69, _⟩ => ⟨S4096, .f32⟩
  | .hbm, ⟨70, _⟩ => ⟨S4096, .f32⟩
  | .hbm, ⟨71, _⟩ => ⟨S1, .f32⟩
  | .hbm, ⟨72, _⟩ => ⟨S_, .f32⟩
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_call0_cst : Ref sig .tc := ⟨.hbm, 13, rfl⟩
abbrev main_call0_v0 : Ref sig .tc := ⟨.hbm, 14, rfl⟩
abbrev main_call0_cst_0 : Ref sig .tc := ⟨.hbm, 15, rfl⟩
abbrev main_call0_v1 : Ref sig .tc := ⟨.hbm, 16, rfl⟩
abbrev main_call0_v2 : Ref sig .tc := ⟨.hbm, 17, rfl⟩
abbrev main_call0_v3 : Ref sig .tc := ⟨.hbm, 18, rfl⟩
abbrev main_call0_v4 : Ref sig .tc := ⟨.hbm, 19, rfl⟩
abbrev main_call0_v5 : Ref sig .tc := ⟨.hbm, 20, rfl⟩
abbrev main_call0_v6 : Ref sig .tc := ⟨.hbm, 21, rfl⟩
abbrev main_call0_cst_1 : Ref sig .tc := ⟨.hbm, 22, rfl⟩
abbrev main_call0_v7 : Ref sig .tc := ⟨.hbm, 23, rfl⟩
abbrev main_call0_v8 : Ref sig .tc := ⟨.hbm, 24, rfl⟩
abbrev main_call0_v9 : Ref sig .tc := ⟨.hbm, 25, rfl⟩
abbrev main_call0_v10 : Ref sig .tc := ⟨.hbm, 26, rfl⟩
abbrev main_v6 : Ref sig .tc := ⟨.hbm, 27, rfl⟩
abbrev main_call1_cst : Ref sig .tc := ⟨.hbm, 28, rfl⟩
abbrev main_call1_v0 : Ref sig .tc := ⟨.hbm, 29, rfl⟩
abbrev main_call1_cst_0 : Ref sig .tc := ⟨.hbm, 30, rfl⟩
abbrev main_call1_v1 : Ref sig .tc := ⟨.hbm, 31, rfl⟩
abbrev main_call1_v2 : Ref sig .tc := ⟨.hbm, 32, rfl⟩
abbrev main_call1_v3 : Ref sig .tc := ⟨.hbm, 33, rfl⟩
abbrev main_call1_v4 : Ref sig .tc := ⟨.hbm, 34, rfl⟩
abbrev main_call1_v5 : Ref sig .tc := ⟨.hbm, 35, rfl⟩
abbrev main_call1_v6 : Ref sig .tc := ⟨.hbm, 36, rfl⟩
abbrev main_call1_cst_1 : Ref sig .tc := ⟨.hbm, 37, rfl⟩
abbrev main_call1_v7 : Ref sig .tc := ⟨.hbm, 38, rfl⟩
abbrev main_call1_v8 : Ref sig .tc := ⟨.hbm, 39, rfl⟩
abbrev main_call1_v9 : Ref sig .tc := ⟨.hbm, 40, rfl⟩
abbrev main_call1_v10 : Ref sig .tc := ⟨.hbm, 41, rfl⟩
abbrev main_v7 : Ref sig .tc := ⟨.hbm, 42, rfl⟩
abbrev main_v8 : Ref sig .tc := ⟨.hbm, 43, rfl⟩
abbrev main_v9 : Ref sig .tc := ⟨.hbm, 44, rfl⟩
abbrev main_v10 : Ref sig .tc := ⟨.hbm, 45, rfl⟩
abbrev main_cst : Ref sig .tc := ⟨.hbm, 46, rfl⟩
abbrev main_v11 : Ref sig .tc := ⟨.hbm, 47, rfl⟩
abbrev main_cst_0 : Ref sig .tc := ⟨.hbm, 48, rfl⟩
abbrev main_v12 : Ref sig .tc := ⟨.hbm, 49, rfl⟩
abbrev main_v13 : Ref sig .tc := ⟨.hbm, 50, rfl⟩
abbrev main_v14 : Ref sig .tc := ⟨.hbm, 51, rfl⟩
abbrev main_cst_1 : Ref sig .tc := ⟨.hbm, 52, rfl⟩
abbrev main_v15 : Ref sig .tc := ⟨.hbm, 53, rfl⟩
abbrev main_cst_2 : Ref sig .tc := ⟨.hbm, 54, rfl⟩
abbrev main_v16 : Ref sig .tc := ⟨.hbm, 55, rfl⟩
abbrev main_v17 : Ref sig .tc := ⟨.hbm, 56, rfl⟩
abbrev main_v18 : Ref sig .tc := ⟨.hbm, 57, rfl⟩
abbrev main_v19 : Ref sig .tc := ⟨.hbm, 58, rfl⟩
abbrev main_v20 : Ref sig .tc := ⟨.hbm, 59, rfl⟩
abbrev main_cst_3 : Ref sig .tc := ⟨.hbm, 60, rfl⟩
abbrev main_v21 : Ref sig .tc := ⟨.hbm, 61, rfl⟩
abbrev main_v22 : Ref sig .tc := ⟨.hbm, 62, rfl⟩
abbrev main_cst_4 : Ref sig .tc := ⟨.hbm, 63, rfl⟩
abbrev main_v23 : Ref sig .tc := ⟨.hbm, 64, rfl⟩
abbrev main_v24 : Ref sig .tc := ⟨.hbm, 65, rfl⟩
abbrev main_cst_5 : Ref sig .tc := ⟨.hbm, 66, rfl⟩
abbrev main_v25 : Ref sig .tc := ⟨.hbm, 67, rfl⟩
abbrev main_v26 : Ref sig .tc := ⟨.hbm, 68, rfl⟩
abbrev main_v27 : Ref sig .tc := ⟨.hbm, 69, rfl⟩
abbrev main_v28 : Ref sig .tc := ⟨.hbm, 70, rfl⟩
abbrev main_v29 : Ref sig .tc := ⟨.hbm, 71, rfl⟩
abbrev main_v30 : Ref sig .tc := ⟨.hbm, 72, rfl⟩

abbrev nD : Nat := 1
abbrev τ : Topo := Topo.v7x

variable {F : FTy → Type} [FloatOps F]

class Facts₀ : Prop where
  reducesTo_S4096x2048_S4096_d1 : S4096x2048.ReducesTo [1] S4096
  h_S_ : 0 < S_.numel
  bcast_S_S4096 : S_.BroadcastsInDim S4096 (![] : Fin 0 → Fin S4096.rank)
  bcast_S4096_S4096x1_0 : S4096.BroadcastsInDim S4096x1 (![0] : Fin 1 → Fin S4096x1.rank)
  bcast_S4096x1_S4096x2048_0_1 : S4096x1.BroadcastsInDim S4096x2048 (![0, 1] : Fin 2 → Fin S4096x2048.rank)
  slices_S4096_S1_4095 : S4096.Slices ![4095] S1
  shapeCasts_S1_S_ : S1.ShapeCasts S_

variable [Facts₀]

class Facts : Prop extends Facts₀ where

variable [Facts]
-- ==== Proof.RowLoss.lean ====
/-
  The loss of ONE row, as a function of that row of each of the seven arrays.

  A row has 2048 entries. With z_q = mu + sqrt(sigma) * eps_post and z_p = prior_mu + sqrt(prior_sigma) * eps_prior
  (entry by entry), log q and log p are the log-softmaxes of z_q and z_p along the row:
      logSoftmax z k = (z k - max z) - log (sum over j of exp (z j - max z)),
  the row's KL term is the mean over the row of exp (log p) * (log p - log q), its Gaussian log-density is
      -1/2 * ((2048 * log (2 pi) + sum of log sigma) + sum of (y - mu)^2 / sigma),
  and the row's loss is  -(logProb / 2048 - kl).
  Everything is on the extended reals with the exact operations; the float literals stay as the words the
  programs print (the same words on both sides are never evaluated).
-/
import Idealize.ShloMosaic.PureOps.Ideal
import Idealize.ShloMosaic.PureOps.Ideal.Laws
import Idealize.ShloMosaic.Lib.ValueIdx

noncomputable section

namespace Cert.RowLoss

open Idealize.ShloMosaic

/-- A row: 2048 extended reals. -/
abbrev Row := Fin 2048 → EReal

/-- The reparameterised sample of a row: mean plus root-variance times noise, entry by entry. -/
def sample (mu sg ep : Row) : Row := fun k => mu k + Ideal.sqrt (sg k) * ep k

/-- The row's maximum, folded from the word the programs start the reduction at (minus infinity). -/
def rowMax (z : Row) : EReal := (Finset.univ : Finset (Fin 2048)).fold max (Ideal.ofBits .f32 0xFF800000#32) z

/-- The row minus its maximum. -/
def shifted (z : Row) : Row := fun k => z k - rowMax z

/-- The log-softmax of a row. -/
def logSoftmax (z : Row) : Row := fun k => shifted z k - Ideal.log (∑ j : Fin 2048, Ideal.exp (shifted z j))

/-- The mean over the row of p * (log p - log q), p = exp (log p), for the two samples' log-softmaxes. -/
def kl (zq zp : Row) : EReal :=
  Ideal.div (∑ k : Fin 2048, Ideal.exp (logSoftmax zp k) * (logSoftmax zp k - logSoftmax zq k))
    (Ideal.ofBits .f32 0x45000000#32)

/-- The diagonal Gaussian's log-density of the row's target. -/
def logProb (mu sg y : Row) : EReal :=
  Ideal.ofBits .f32 0xBF000000#32
    * ((Ideal.ofBits .f32 0x456B3F8E#32 + ∑ k : Fin 2048, Ideal.log (sg k))
        + ∑ k : Fin 2048, Ideal.div ((y k - mu k) * (y k - mu k)) (sg k))

/-- The row's loss, of the row of each argument array in the programs' argument order:
    prior mean, prior variance, mean, variance, target, posterior noise, prior noise. -/
def rowLoss (pmu psg mu sg y eq ep : Row) : EReal :=
  -(Ideal.div (logProb mu sg y) (Ideal.ofBits .f32 0x45000000#32) - kl (sample mu sg eq) (sample pmu psg ep))

/-- Row `r` of an array of 4096 rows of 2048 entries. -/
def arrRow (a : (⟨2, ![4096, 2048]⟩ : Shape).Idx → EReal) (r : Fin 4096) : Row := fun k => a (ValueIdx.ix2 r k)

/-- The loss both programs return: the row loss of the LAST row of the seven arrays. -/
def lastLoss (a0 a1 a2 a3 a4 a5 a6 : (⟨2, ![4096, 2048]⟩ : Shape).Idx → EReal) : EReal :=
  rowLoss (arrRow a0 4095) (arrRow a1 4095) (arrRow a2 4095) (arrRow a3 4095) (arrRow a4 4095) (arrRow a5 4095) (arrRow a6 4095)

/-- Folding a maximum in once more from the fold's own starting value changes nothing. -/
theorem max_init_rowMax (z : Row) : max (Ideal.ofBits .f32 0xFF800000#32) (rowMax z) = rowMax z :=
  max_eq_right ((Finset.le_fold_max _).2 (Or.inl le_rfl))

/-- Zero minus a value is its negative, at every extended real. -/
theorem zero_sub_eq_neg (x : EReal) : (0 : EReal) - x = -x := zero_sub x

end Cert.RowLoss

end
-- ==== Proof.LibColumn.lean ====
/-
  Column forms of two layout operations, read at an index (general in the sizes).

  A vector of `a` entries cast to an `[a, 1]` column and back, and a column broadcast along a new minor
  axis of extent `b`: what a sum with its reduced axis kept, or a per-row value spread over the lanes,
  prints. Each reads the operand at the row's index.
-/
import Idealize.ShloMosaic.Lib.Pipeline.Value
import Idealize.ShloMosaic.Lib.ValueIdx

namespace Idealize.ShloMosaic.ValueLayout

open Idealize.ShloMosaic.ValueIdx

variable {α : Type}

/-- An `[a]` array cast to the column `[a, 1]` reads, at `(i, u)`, the operand at `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` cast to `[a]` reads, at `i`, the operand at `(i, 0)`. -/
theorem shapeCast_a1_a_apply {a : ℕ} (x : (⟨2, ![a, 1]⟩ : Shape).Idx → α) (h : (⟨2, ![a, 1]⟩ : Shape).ShapeCasts ⟨1, ![a]⟩)
    (i : Fin a) : shapeCast ⟨1, ![a]⟩ x h (ix1 i) = x (ix2 i (0 : Fin 1)) :=
  shapeCast_apply x h _ _ (by
    rw [Shape.rowMajor_val_two, Shape.rowMajor_val_one]
    show i.val * 1 + 0 = i.val
    rw [Nat.mul_one, Nat.add_zero])

/-- A column `[a, 1]` broadcast to `[a, b]` reads, at `(i, l)`, the operand at `(i, 0)`, for `1 < a`. -/
theorem broadcastTo_a1_ab_apply {a b : ℕ} (ha : a ≠ 1) (v : (⟨2, ![a, 1]⟩ : Shape).Idx → α)
    (h : (⟨2, ![a, 1]⟩ : Shape).Broadcasts ⟨2, ![a, b]⟩) (i : Fin a) (l : Fin b) :
    broadcastTo ⟨2, ![a, b]⟩ v h (ix2 i l) = v (ix2 i (0 : Fin 1)) :=
  broadcastTo_apply v h _ _ (fun d => by
    match d with
    | ⟨0, _⟩ => show i.val = if a = 1 then 0 else i.val; rw [if_neg ha]
    | ⟨1, _⟩ => show (0 : ℕ) = if (1 : ℕ) = 1 then 0 else l.val; rw [if_pos rfl])

end Idealize.ShloMosaic.ValueLayout
-- ==== Proof.KernelRow.lean ====
/-
  What the kernel's body stores, read at one row.

  At a grid point the body holds a block of 128 rows of each of the seven arrays and stores one column of 128
  values. Every reduction in the body runs along a row (the lanes), and every value it spreads is a per-row
  value spread over that row's lanes, so entry (p, 0) of the stored column depends only on row p of each block:
  it is the row loss of those seven rows. The lane sums read as finite sums over the row, the lane maxima as the
  fold of max from minus infinity over the row, and the final "zero minus" is the negation.
-/
import proofs.«102283_j29386166239267_1_alg».proof.Proof.Gen.KernelIdeal.Skeleton
import proofs.«102283_j29386166239267_1_alg».proof.Proof.RowLoss
import proofs.«102283_j29386166239267_1_alg».proof.Proof.LibColumn
import Idealize.ShloMosaic.Lib.ValueIdx
import Idealize.ShloMosaic.Lib.Pipeline.Value
import Idealize.ShloMosaic.PureOps.Ideal.Laws

noncomputable section

namespace Cert.KernelIdeal.RowValue

open Idealize.ShloMosaic Idealize.ShloMosaic.ValueIdx Idealize.ShloMosaic.ValueLayout
open Cert.KernelIdeal Cert.KernelIdeal.Gen Cert.RowLoss

/-- Row `p` of a block of 128 rows. -/
def blockRow (x : FVec Ideal S128x2048 .f32) (p : Fin 128) : Row := fun k => x (ix2 p k)

/-- Square root, exponential and logarithm act entry by entry. -/
theorem sqrt_apply (a : FVec Ideal S128x2048 .f32) (i : S128x2048.Idx) : Idealize.ShloMosaic.sqrt a i = Ideal.sqrt (a i) := rfl
theorem exp_apply (a : FVec Ideal S128x2048 .f32) (i : S128x2048.Idx) : Idealize.ShloMosaic.exp a i = Ideal.exp (a i) := rfl
theorem log_apply (a : FVec Ideal S128x2048 .f32) (i : S128x2048.Idx) : Idealize.ShloMosaic.log a i = Ideal.log (a i) := rfl
theorem logCol_apply (a : FVec Ideal S128x1 .f32) (i : S128x1.Idx) : Idealize.ShloMosaic.log a i = Ideal.log (a i) := rfl

/-- The reparameterised sample of a row, entry by entry. -/
theorem sample_eq (mu sg ep : Row) : sample mu sg ep = fun k => mu k + Ideal.sqrt (sg k) * ep k := rfl

/-- The reduced index `p` with lane `k` put back is `(p, k)`. -/
theorem lift_eq (hr : S128x2048.Reduces [1] S128) (p : Fin 128) (k : Fin 2048) : hr.lift (ix1 p) k = ix2 p k :=
  funext fun a => Fin.ext (by match a with | ⟨0, _⟩ => rfl | ⟨1, _⟩ => rfl)

/-- A lane sum kept as a column reads, at `(p, u)`, the sum of row `p`. -/
theorem sumCol (v : FVec Ideal S128x2048 .f32) (hr : S128x2048.Reduces [1] S128) (hφ : FKind.Formats .f32)
    (hacc : (0x00000000#32 : BitVec 32) = 0x00000000#32) (hc : S128.ShapeCasts S128x1) (p : Fin 128) (u : Fin 1) :
    shapeCast S128x1 (no_index (multiReduction .add [1] S128 v 0x00000000#32 hr hφ hacc)) hc (ix2 p u) = ∑ k : Fin 2048, v (ix2 p k) :=
  (shapeCast_a_a1_apply _ hc p u).trans
    ((Ideal.multiReduction_add_single v 0x00000000#32 hr hφ hacc (ix1 p)).trans
      (Finset.sum_congr rfl fun k _ => congrArg v (lift_eq hr p k)))

/-- A lane maximum kept as a column reads, at `(p, u)`, the maximum of row `p` folded from minus infinity. -/
theorem maxCol (v : FVec Ideal S128x2048 .f32) (hr : S128x2048.Reduces [1] S128) (hφ : FKind.Formats .f32)
    (hacc : (0xFF800000#32 : BitVec 32) = 0xFF800000#32) (hc : S128.ShapeCasts S128x1) (p : Fin 128) (u : Fin 1) :
    shapeCast S128x1 (no_index (multiReduction .maximumf [1] S128 v 0xFF800000#32 hr hφ hacc)) hc (ix2 p u) = rowMax (fun k => v (ix2 p k)) :=
  (shapeCast_a_a1_apply _ hc p u).trans
    ((Ideal.multiReduction_maximumf_single v 0xFF800000#32 hr hφ hacc (ix1 p)).trans
      (congrArg (fun f => (Finset.univ : Finset (Fin 2048)).fold max (Ideal.ofBits .f32 0xFF800000#32) f)
        (funext fun k => congrArg v (lift_eq hr p k))))

/-- A column spread over the lanes reads, at `(p, k)`, the column's row `p`. -/
theorem spreadCol (c : FVec Ideal S128x1 .f32) (hb : S128x1.Broadcasts S128x2048) (p : Fin 128) (k : Fin 2048) :
    broadcastTo S128x2048 c hb (ix2 p k) = c (ix2 p (0 : Fin 1)) :=
  broadcastTo_a1_ab_apply (by decide) c hb p k

/-- THE STORED COLUMN AT ROW `p`: the row loss of row `p` of the seven blocks (the blocks in the order of the
    argument arrays: prior mean, prior variance, mean, variance, target, posterior noise, prior noise). Every
    operation is pushed to the entry; the lane reductions become sums and maxima over the row; zero minus the
    value is its negative. -/
theorem pay_row (x0 x1 x2 x3 x4 x5 x6 : FVec Ideal S128x2048 .f32) (p : Fin 128) :
    k0_pay1 (F := Ideal) x2 x3 (k0_pay2 (F := Ideal) x2 x3 x5 x0 x1 x6) x4 (ix2 p (0 : Fin 1))
      = rowLoss (blockRow x0 p) (blockRow x1 p) (blockRow x2 p) (blockRow x3 p) (blockRow x4 p) (blockRow x5 p) (blockRow x6 p) := by
  unfold k0_pay1 k0_pay2
  simp only [subf_apply, addf_apply, mulf_apply, divf_apply, broadcast_apply, sumCol, maxCol, spreadCol,
    sqrt_apply, exp_apply, log_apply, logCol_apply, Ideal.ofBits_def, Ideal.ofBits_zero_f32, zero_sub,
    rowLoss, logProb, kl, logSoftmax, shifted, sample_eq, blockRow]

end Cert.KernelIdeal.RowValue

end
-- ==== Proof.LibScalarCast.lean ====
/-
  A one-element array cast to rank 0, read at its index (general in the shape).

  A reshape keeps the row-major position. An array with one element has every index at position 0, and the
  rank-0 array's one index is at position 0 too, so the cast reads the operand at any index one cares to name.
-/
import Idealize.ShloMosaic.Lib.Pipeline.Value

namespace Idealize.ShloMosaic.ValueLayout

variable {α : Type}

/-- A one-element array cast to the rank-0 shape reads, at the rank-0 index, the operand at any of its indices
    (there is only one). -/
theorem shapeCast_scalar_apply {s : Shape} (x : s.Idx → α) (h : s.ShapeCasts ⟨0, ![]⟩) (hn : s.numel = 1)
    (j : (⟨0, ![]⟩ : Shape).Idx) (k : s.Idx) : shapeCast ⟨0, ![]⟩ x h j = x k :=
  shapeCast_apply x h j k (by
    have h1 : (s.rowMajor k).val < s.numel := (s.rowMajor k).isLt
    have h2 : ((⟨0, ![]⟩ : Shape).rowMajor j).val < (⟨0, ![]⟩ : Shape).numel := ((⟨0, ![]⟩ : Shape).rowMajor j).isLt
    have h0 : (⟨0, ![]⟩ : Shape).numel = 1 := by decide
    omega)

end Idealize.ShloMosaic.ValueLayout
-- ==== Proof.KernelArray.lean ====
/-
  From the blocks to the whole column, and on to the program's result.

  The grid has 32 points; point t stages rows 128 t .. 128 t + 127 of each of the seven arrays (all 2048 lanes)
  and writes back rows 128 t .. 128 t + 127 of the one-lane output column. By the row reading of the body, what
  point t writes back is block t of ONE function of the argument arrays: the column whose entry (r, 0) is the row
  loss of row r of the seven arrays. The 32 blocks tile the column, so after the run the output array is that
  column; the two host operations after the region then take entry (4095, 0) of it as a rank-0 value.
-/
import proofs.«102283_j29386166239267_1_alg».proof.Proof.Gen.KernelIdeal.Frame
import proofs.«102283_j29386166239267_1_alg».proof.Proof.KernelRow
import proofs.«102283_j29386166239267_1_alg».proof.Proof.LibScalarCast
import Idealize.ShloMosaic.Lib.Pipeline.Value
import Idealize.ShloMosaic.Lib.StableHlo.Run

set_option maxRecDepth 16384

noncomputable section

namespace Cert.KernelIdeal.ArrayValue

open Idealize.ShloMosaic Idealize.ShloMosaic.TcCoe Idealize.ShloMosaic.ValueIdx Idealize.ShloMosaic.ValueLayout
open Idealize.ShloMosaic.StableHlo Idealize.SL.Sem
open Idealize.ShloMosaic.Pipeline (Dat)
open Cert.KernelIdeal Cert.KernelIdeal.Gen Cert.KernelIdeal.RowValue Cert.RowLoss

variable (m : (ℓ : Loc nD τ sig) → Buf (Elt Ideal) ℓ) (ρ : Dev nD → PrngReg)

/-- The column of row losses of seven arrays: entry `(r, 0)` is the row loss of row `r` of each. -/
def lossCol (a0 a1 a2 a3 a4 a5 a6 : S4096x2048.Idx → Elt Ideal .f32) : S4096x1.Idx → Elt Ideal .f32 :=
  fun i => rowLoss (arrRow a0 ⟨(i 0).val, idx2_lt0 i⟩) (arrRow a1 ⟨(i 0).val, idx2_lt0 i⟩) (arrRow a2 ⟨(i 0).val, idx2_lt0 i⟩)
    (arrRow a3 ⟨(i 0).val, idx2_lt0 i⟩) (arrRow a4 ⟨(i 0).val, idx2_lt0 i⟩) (arrRow a5 ⟨(i 0).val, idx2_lt0 i⟩)
    (arrRow a6 ⟨(i 0).val, idx2_lt0 i⟩)

/-- The column at an index whose row is `r`. -/
theorem lossCol_apply (a0 a1 a2 a3 a4 a5 a6 : S4096x2048.Idx → Elt Ideal .f32) (i : S4096x1.Idx) (r : Fin 4096)
    (h : (i 0).val = r.val) :
    lossCol a0 a1 a2 a3 a4 a5 a6 i = rowLoss (arrRow a0 r) (arrRow a1 r) (arrRow a2 r) (arrRow a3 r) (arrRow a4 r) (arrRow a5 r) (arrRow a6 r) := by
  have e : (⟨(i 0).val, idx2_lt0 i⟩ : Fin 4096) = r := Fin.ext h
  unfold lossCol
  rw [e]

theorem zeros2 : (![0, 0] : Fin 2 → Nat) = fun _ => 0 := funext fun a => by fin_cases a <;> rfl

/-- The index maps, decided over the 32 points: every input window's block row is the output's, every block
    column is 0, and the output's block row is at most 31. -/
theorem idx_facts : ∀ t : Fin cfg0.N,
    win0_0.index t (0 : Fin 2) = win0_7.index t (0 : Fin 2) ∧ win0_0.index t (1 : Fin 2) = 0
    ∧ win0_1.index t (0 : Fin 2) = win0_7.index t (0 : Fin 2) ∧ win0_1.index t (1 : Fin 2) = 0
    ∧ win0_2.index t (0 : Fin 2) = win0_7.index t (0 : Fin 2) ∧ win0_2.index t (1 : Fin 2) = 0
    ∧ win0_3.index t (0 : Fin 2) = win0_7.index t (0 : Fin 2) ∧ win0_3.index t (1 : Fin 2) = 0
    ∧ win0_4.index t (0 : Fin 2) = win0_7.index t (0 : Fin 2) ∧ win0_4.index t (1 : Fin 2) = 0
    ∧ win0_5.index t (0 : Fin 2) = win0_7.index t (0 : Fin 2) ∧ win0_5.index t (1 : Fin 2) = 0
    ∧ win0_6.index t (0 : Fin 2) = win0_7.index t (0 : Fin 2) ∧ win0_6.index t (1 : Fin 2) = 0
    ∧ win0_7.index t (1 : Fin 2) = 0 ∧ win0_7.index t (0 : Fin 2) ≤ 31 :=
  (by decide +kernel : ∀ t : Fin grid0.N, _)

/-- Every block row of the column is some point's. -/
theorem idx_onto : ∀ q : Fin 32, ∃ t : Fin cfg0.N, win0_7.index t = ![q.val, 0] :=
  (by decide +kernel : ∀ q : Fin 32, ∃ t : Fin grid0.N, win0_7.index t = ![q.val, 0])

/-- Row `p` of input window 0's block at point `t` is row `128 * (block row) + p` of its array. -/
theorem row_of_block_0 (c : Dev nD) (t : Fin cfg0.N) (p : Fin 128) (r : Fin 4096)
    (hr : r.val = win0_7.index t (0 : Fin 2) * 128 + p.val) :
    blockRow (iblk m c 0 t) p = arrRow (V m c main_arg0) r := by
  obtain ⟨a0, b0, a1, b1, a2, b2, a3, b3, a4, b4, a5, b5, a6, b6, b7, le7⟩ := idx_facts t
  funext k
  show V m c main_arg0 (((cfg0.win 0).blk t).view.emb (ix2 p k)) = V m c main_arg0 (ix2 r k)
  refine congrArg (V m c main_arg0) (funext fun a => Fin.ext ?_)
  match a with
  | ⟨0, _⟩ => show win0_0.index t (0 : Fin 2) * 128 + 1 * p.val = r.val; omega
  | ⟨1, _⟩ => show win0_0.index t (1 : Fin 2) * 2048 + 1 * k.val = k.val; omega

/-- Row `p` of input window 1's block at point `t` is row `128 * (block row) + p` of its array. -/
theorem row_of_block_1 (c : Dev nD) (t : Fin cfg0.N) (p : Fin 128) (r : Fin 4096)
    (hr : r.val = win0_7.index t (0 : Fin 2) * 128 + p.val) :
    blockRow (iblk m c 1 t) p = arrRow (V m c main_arg1) r := by
  obtain ⟨a0, b0, a1, b1, a2, b2, a3, b3, a4, b4, a5, b5, a6, b6, b7, le7⟩ := idx_facts t
  funext k
  show V m c main_arg1 (((cfg0.win 1).blk t).view.emb (ix2 p k)) = V m c main_arg1 (ix2 r k)
  refine congrArg (V m c main_arg1) (funext fun a => Fin.ext ?_)
  match a with
  | ⟨0, _⟩ => show win0_1.index t (0 : Fin 2) * 128 + 1 * p.val = r.val; omega
  | ⟨1, _⟩ => show win0_1.index t (1 : Fin 2) * 2048 + 1 * k.val = k.val; omega

/-- Row `p` of input window 2's block at point `t` is row `128 * (block row) + p` of its array. -/
theorem row_of_block_2 (c : Dev nD) (t : Fin cfg0.N) (p : Fin 128) (r : Fin 4096)
    (hr : r.val = win0_7.index t (0 : Fin 2) * 128 + p.val) :
    blockRow (iblk m c 2 t) p = arrRow (V m c main_arg2) r := by
  obtain ⟨a0, b0, a1, b1, a2, b2, a3, b3, a4, b4, a5, b5, a6, b6, b7, le7⟩ := idx_facts t
  funext k
  show V m c main_arg2 (((cfg0.win 2).blk t).view.emb (ix2 p k)) = V m c main_arg2 (ix2 r k)
  refine congrArg (V m c main_arg2) (funext fun a => Fin.ext ?_)
  match a with
  | ⟨0, _⟩ => show win0_2.index t (0 : Fin 2) * 128 + 1 * p.val = r.val; omega
  | ⟨1, _⟩ => show win0_2.index t (1 : Fin 2) * 2048 + 1 * k.val = k.val; omega

/-- Row `p` of input window 3's block at point `t` is row `128 * (block row) + p` of its array. -/
theorem row_of_block_3 (c : Dev nD) (t : Fin cfg0.N) (p : Fin 128) (r : Fin 4096)
    (hr : r.val = win0_7.index t (0 : Fin 2) * 128 + p.val) :
    blockRow (iblk m c 3 t) p = arrRow (V m c main_arg3) r := by
  obtain ⟨a0, b0, a1, b1, a2, b2, a3, b3, a4, b4, a5, b5, a6, b6, b7, le7⟩ := idx_facts t
  funext k
  show V m c main_arg3 (((cfg0.win 3).blk t).view.emb (ix2 p k)) = V m c main_arg3 (ix2 r k)
  refine congrArg (V m c main_arg3) (funext fun a => Fin.ext ?_)
  match a with
  | ⟨0, _⟩ => show win0_3.index t (0 : Fin 2) * 128 + 1 * p.val = r.val; omega
  | ⟨1, _⟩ => show win0_3.index t (1 : Fin 2) * 2048 + 1 * k.val = k.val; omega

/-- Row `p` of input window 4's block at point `t` is row `128 * (block row) + p` of its array. -/
theorem row_of_block_4 (c : Dev nD) (t : Fin cfg0.N) (p : Fin 128) (r : Fin 4096)
    (hr : r.val = win0_7.index t (0 : Fin 2) * 128 + p.val) :
    blockRow (iblk m c 4 t) p = arrRow (V m c main_arg4) r := by
  obtain ⟨a0, b0, a1, b1, a2, b2, a3, b3, a4, b4, a5, b5, a6, b6, b7, le7⟩ := idx_facts t
  funext k
  show V m c main_arg4 (((cfg0.win 4).blk t).view.emb (ix2 p k)) = V m c main_arg4 (ix2 r k)
  refine congrArg (V m c main_arg4) (funext fun a => Fin.ext ?_)
  match a with
  | ⟨0, _⟩ => show win0_4.index t (0 : Fin 2) * 128 + 1 * p.val = r.val; omega
  | ⟨1, _⟩ => show win0_4.index t (1 : Fin 2) * 2048 + 1 * k.val = k.val; omega

/-- Row `p` of input window 5's block at point `t` is row `128 * (block row) + p` of its array. -/
theorem row_of_block_5 (c : Dev nD) (t : Fin cfg0.N) (p : Fin 128) (r : Fin 4096)
    (hr : r.val = win0_7.index t (0 : Fin 2) * 128 + p.val) :
    blockRow (iblk m c 5 t) p = arrRow (V m c main_arg5) r := by
  obtain ⟨a0, b0, a1, b1, a2, b2, a3, b3, a4, b4, a5, b5, a6, b6, b7, le7⟩ := idx_facts t
  funext k
  show V m c main_arg5 (((cfg0.win 5).blk t).view.emb (ix2 p k)) = V m c main_arg5 (ix2 r k)
  refine congrArg (V m c main_arg5) (funext fun a => Fin.ext ?_)
  match a with
  | ⟨0, _⟩ => show win0_5.index t (0 : Fin 2) * 128 + 1 * p.val = r.val; omega
  | ⟨1, _⟩ => show win0_5.index t (1 : Fin 2) * 2048 + 1 * k.val = k.val; omega

/-- Row `p` of input window 6's block at point `t` is row `128 * (block row) + p` of its array. -/
theorem row_of_block_6 (c : Dev nD) (t : Fin cfg0.N) (p : Fin 128) (r : Fin 4096)
    (hr : r.val = win0_7.index t (0 : Fin 2) * 128 + p.val) :
    blockRow (iblk m c 6 t) p = arrRow (V m c main_arg6) r := by
  obtain ⟨a0, b0, a1, b1, a2, b2, a3, b3, a4, b4, a5, b5, a6, b6, b7, le7⟩ := idx_facts t
  funext k
  show V m c main_arg6 (((cfg0.win 6).blk t).view.emb (ix2 p k)) = V m c main_arg6 (ix2 r k)
  refine congrArg (V m c main_arg6) (funext fun a => Fin.ext ?_)
  match a with
  | ⟨0, _⟩ => show win0_6.index t (0 : Fin 2) * 128 + 1 * p.val = r.val; omega
  | ⟨1, _⟩ => show win0_6.index t (1 : Fin 2) * 2048 + 1 * k.val = k.val; omega

/-- WHAT POINT `t` WRITES BACK is block `t` of the column of row losses of the argument arrays. -/
theorem flushed_eq (c : Dev nD) (t : Fin cfg0.N) :
    (dats m 0 c).flushed 7 t = ((cfg0.win 7).blk t).view.read (Elt Ideal) (lossCol (V m c main_arg0) (V m c main_arg1) (V m c main_arg2) (V m c main_arg3) (V m c main_arg4) (V m c main_arg5) (V m c main_arg6)) := by
  show (cfg0.win 7).cut (grid0.coords t) ((dats m 0 c).after 7 t) = _
  rw [after0_7]
  unfold out0_7
  rw [View.canon_unit_zero zeros2]
  simp only [View.ld_unit_zero (S := S128x2048) zeros2]
  obtain ⟨a0, b0, a1, b1, a2, b2, a3, b3, a4, b4, a5, b5, a6, b6, b7, le7⟩ := idx_facts t
  funext j
  obtain ⟨p, u, rfl⟩ : ∃ (p : Fin 128) (u : Fin 1), j = ix2 p u := ⟨j 0, j 1, eq_ix2 j⟩
  obtain rfl : u = 0 := Subsingleton.elim _ _
  have hr : win0_7.index t (0 : Fin 2) * 128 + p.val < 4096 := by have := p.isLt; omega
  show k0_pay1 (F := Ideal) (iblk m c 2 t) (iblk m c 3 t) (k0_pay2 (F := Ideal) (iblk m c 2 t) (iblk m c 3 t) (iblk m c 5 t) (iblk m c 0 t) (iblk m c 1 t) (iblk m c 6 t)) (iblk m c 4 t) (ix2 p (0 : Fin 1))
      = lossCol (V m c main_arg0) (V m c main_arg1) (V m c main_arg2) (V m c main_arg3) (V m c main_arg4) (V m c main_arg5) (V m c main_arg6) (((cfg0.win 7).blk t).view.emb (ix2 p (0 : Fin 1)))
  refine (pay_row (iblk m c 0 t) (iblk m c 1 t) (iblk m c 2 t) (iblk m c 3 t) (iblk m c 4 t) (iblk m c 5 t) (iblk m c 6 t) p).trans ?_
  rw [row_of_block_0 m c t p ⟨_, hr⟩ rfl, row_of_block_1 m c t p ⟨_, hr⟩ rfl, row_of_block_2 m c t p ⟨_, hr⟩ rfl,
    row_of_block_3 m c t p ⟨_, hr⟩ rfl, row_of_block_4 m c t p ⟨_, hr⟩ rfl, row_of_block_5 m c t p ⟨_, hr⟩ rfl,
    row_of_block_6 m c t p ⟨_, hr⟩ rfl]
  exact (lossCol_apply (V m c main_arg0) (V m c main_arg1) (V m c main_arg2) (V m c main_arg3) (V m c main_arg4) (V m c main_arg5) (V m c main_arg6) _ ⟨_, hr⟩
    (by show win0_7.index t (0 : Fin 2) * 128 + 1 * p.val = win0_7.index t (0 : Fin 2) * 128 + p.val; omega)).symm

/-- An index of the column is in point `t`'s block iff each coordinate is in the block's range on its axis. -/
theorem mem_blk (t : Fin cfg0.N) (i : S4096x1.Idx) :
    i ∈ ((cfg0.win 7).blk t).view.set ↔ ∀ a : Fin 2, win0_7.index t a * S128x1.size a ≤ (i a).val ∧ (i a).val < win0_7.index t a * S128x1.size a + S128x1.size a := by
  show i ∈ ((View.whole main_v0).slice (win0_7.rect t)).set ↔ _
  rw [View.set_slice_whole, Rect.mem_set_unit]
  exact Iff.rfl

/-- The 32 blocks cover the column: row `r` is in the block of the point whose block row is `r / 128`. -/
theorem cover (i : S4096x1.Idx) : ∃ t : Fin cfg0.N, (cfg0.win 7).flush t = true ∧ i ∈ ((cfg0.win 7).blk t).view.set := by
  have hi0 : (i 0).val < 4096 := (i 0).isLt
  have hi1 : (i 1).val < 1 := (i 1).isLt
  obtain ⟨t, ht⟩ := idx_onto ⟨(i 0).val / 128, by omega⟩
  have q0 : win0_7.index t (0 : Fin 2) = (i 0).val / 128 := congrFun ht 0
  have q1 : win0_7.index t (1 : Fin 2) = 0 := congrFun ht 1
  refine ⟨t, flush0_7 t, ?_⟩
  rw [mem_blk]
  intro a
  match a with
  | ⟨0, _⟩ => show win0_7.index t (0 : Fin 2) * 128 ≤ (i 0).val ∧ (i 0).val < win0_7.index t (0 : Fin 2) * 128 + 128; omega
  | ⟨1, _⟩ => show win0_7.index t (1 : Fin 2) * 1 ≤ (i 1).val ∧ (i 1).val < win0_7.index t (1 : Fin 2) * 1 + 1; omega

/-- THE OUTPUT ARRAY after the run: the column of row losses of the argument arrays. -/
theorem final (c : Dev nD) : (dats m 0 c).arrAt 7 cfg0.N = lossCol (V m c main_arg0) (V m c main_arg1) (V m c main_arg2) (V m c main_arg3) (V m c main_arg4) (V m c main_arg5) (V m c main_arg6) :=
  (dats m 0 c).arrAt_eq_of_cover 7 (lossCol (V m c main_arg0) (V m c main_arg1) (V m c main_arg2) (V m c main_arg3) (V m c main_arg4) (V m c main_arg5) (V m c main_arg6)) (fun t _ => flushed_eq m c t) cover

/-- THE RESULT BUFFER after the host operations that follow the region: entry (4095, 0) of the column, as a rank-0
    value. -/
theorem tail_value (c : Dev nD) :
    Pipeline.afterTail₀ cfgs (dats m) 0 (V0 m) [hostOps1] c main_v2
      = fun _ => lastLoss (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) := by
  unfold Pipeline.afterTail₀
  show StableHlo.after hostOps1 _ (Proc.devRef .tc main_v2) = _
  after_results
  have hA : Pipeline.withArrays (cfgs 0).spec c (V0 m c) (fun w => (dats m 0 c).arrAt w (cfgs 0).N) (Proc.devRef .tc main_v0)
      = lossCol (V m c main_arg0) (V m c main_arg1) (V m c main_arg2) (V m c main_arg3) (V m c main_arg4) (V m c main_arg5) (V m c main_arg6) :=
    (Pipeline.withArrays_arr spec0 launch0.win.arr_inj c _ _ 7).trans (final m c)
  rw [hA]
  funext i
  show shapeCast S_ (extractStridedSlice S1x1 ![4095, 0] (lossCol (V m c main_arg0) (V m c main_arg1) (V m c main_arg2) (V m c main_arg3) (V m c main_arg4) (V m c main_arg5) (V m c main_arg6)) slices_S4096x1_S1x1_4095_0) shapeCasts_S1x1_S_ i = _
  refine (shapeCast_scalar_apply _ shapeCasts_S1x1_S_ (by decide) i (ix2 (0 : Fin 1) (0 : Fin 1))).trans ?_
  refine (extractStridedSlice_apply ![4095, 0] _ slices_S4096x1_S1x1_4095_0 (ix2 (0 : Fin 1) (0 : Fin 1))
    (ix2 (4095 : Fin 4096) (0 : Fin 1)) (fun a => by match a with | ⟨0, _⟩ => rfl | ⟨1, _⟩ => rfl)).trans ?_
  exact lossCol_apply (V m c main_arg0) (V m c main_arg1) (V m c main_arg2) (V m c main_arg3) (V m c main_arg4) (V m c main_arg5) (V m c main_arg6) (ix2 (4095 : Fin 4096) (0 : Fin 1)) 4095 rfl

/-- The result buffer is one of the buffers the region does not stage. -/
theorem main_v2_rest : main_v2 ∈ Pipeline.restRefs sig (cfgs 0).spec := by decide

/-- THE KERNEL PROGRAM'S RUN, READ: every weakly fair execution ends with the result buffer at the last row's loss
    of the argument arrays, and the argument arrays unchanged (the frame run, its post read through the host
    operations after the region). -/
theorem kernel_run : θ_run defs (onTc (τ := τ) (main (F := Ideal))) ⟨m, fun _ => 0, ρ⟩ (fun r => ∀ c : Dev nD,
      r.2.mem ((c.tc : Thread nD τ).loc main_v2) = (fun _ => lastLoss (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun r h c => ⟨((h c).2 main_v2 main_v2_rest).trans (tail_value m c),
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c))),
      ((h c).1 2).trans (((dats m 0 c).arrAt_in 2 rfl _).trans ((A_eq m c 2).trans (V_main_arg2 m c))),
      ((h c).1 3).trans (((dats m 0 c).arrAt_in 3 rfl _).trans ((A_eq m c 3).trans (V_main_arg3 m c))),
      ((h c).1 4).trans (((dats m 0 c).arrAt_in 4 rfl _).trans ((A_eq m c 4).trans (V_main_arg4 m c))),
      ((h c).1 5).trans (((dats m 0 c).arrAt_in 5 rfl _).trans ((A_eq m c 5).trans (V_main_arg5 m c))),
      ((h c).1 6).trans (((dats m 0 c).arrAt_in 6 rfl _).trans ((A_eq m c 6).trans (V_main_arg6 m c)))⟩)
    (run_main m ρ)

end Cert.KernelIdeal.ArrayValue

end
-- ==== Proof.RefRow.lean ====
/-
  The reference, read at one row.

  The reference computes, for all 4096 rows at once, the same chain as the kernel's body: the two samples, their
  log-softmaxes along the rows (each a module-local function the compiler inlines), the mean of p (log p - log q),
  the Gaussian log-density, and the negated difference; then it keeps the last row's value. Every reduction runs
  along a row and every spread value is a per-row value, so entry r of the vector before the final slice is the
  row loss of row r of the seven arrays. The stages and their read-at-an-index lemmas are the generated ones; here
  they are chained, the reductions read as sums and a fold of max over the row.
-/
import proofs.«102283_j29386166239267_1_alg».proof.Proof.ReadP
import proofs.«102283_j29386166239267_1_alg».proof.Proof.RowLoss
import proofs.«102283_j29386166239267_1_alg».proof.Proof.LibScalarCast
import Idealize.ShloMosaic.Lib.ValueIdx
import Idealize.ShloMosaic.PureOps.Ideal.Laws

noncomputable section

namespace Cert.ReferenceIdeal.RefValue

open Idealize.ShloMosaic Idealize.ShloMosaic.ValueIdx Idealize.ShloMosaic.ValueLayout
open Cert.ReferenceIdeal Cert.ReferenceIdeal.Gen Cert.ReferenceIdeal.ReadP Cert.RowLoss

/-- An argument array: 4096 rows of 2048 extended reals. -/
abbrev Arr := (⟨S4096x2048, .f32⟩ : BufTy).Contents (Elt Ideal)

variable (x0 x1 x2 x3 x4 x5 x6 : Arr) (r : Fin 4096)

/-! ## The stages' index functions at a row -/

/-- The reduced index `r` with lane `k` put back is `(r, k)`. -/
theorem lift_eq (hr : S4096x2048.Reduces [1] S4096) (r : Fin 4096) (k : Fin 2048) : hr.lift (ix1 r) k = ix2 r k :=
  funext fun a => Fin.ext (by match a with | ⟨0, _⟩ => rfl | ⟨1, _⟩ => rfl)

/-- An entry's row, through the column: `(r, k) ↦ (r, 0) ↦ r`. -/
theorem idx_entry_row (r : Fin 4096) (k : Fin 2048) :
    idx_main_call0_v3 (idx_main_call0_v4 (ix2 r k)) = ix1 r :=
  funext fun a => Fin.ext (by match a with | ⟨0, _⟩ => rfl)
/-- A column entry's row: `(r, u) ↦ r`. -/
theorem idx_col_row (r : Fin 4096) (u : Fin 1) : idx_main_call0_v8 (ix2 r u) = ix1 r :=
  funext fun a => Fin.ext (by match a with | ⟨0, _⟩ => rfl)
/-- Row `r`'s entry `k`: `r, k ↦ (r, k)`. -/
theorem idx_row_entry (r : Fin 4096) (k : Fin 2048) : idx_main_call0_v7 (ix1 r) k = ix2 r k :=
  funext fun a => Fin.ext (by match a with | ⟨0, _⟩ => rfl | ⟨1, _⟩ => rfl)
/-- An entry's column entry: `(r, k) ↦ (r, 0)`. -/
theorem idx_entry_col (r : Fin 4096) (k : Fin 2048) : idx_main_call0_v10 (ix2 r k) = ix2 r (0 : Fin 1) :=
  funext fun a => Fin.ext (by match a with | ⟨0, _⟩ => rfl | ⟨1, _⟩ => rfl)

/-! ## The posterior sample's log-softmax (the call that writes `main_v6`) -/

/-- The posterior sample at an entry of row `r`. -/
theorem zq_apply (k : Fin 2048) : val_main_v2 (F := Ideal) x2 x3 x5 (ix2 r k) = (sample (arrRow x2 r) (arrRow x3 r) (arrRow x5 r)) k := rfl

/-- Its row maximum: the reduce is the fold of max over the row from minus infinity, and the maximum with minus
    infinity taken once more changes nothing. -/
theorem maxq_apply : val_main_call0_v2 (F := Ideal) x2 x3 x5 (ix1 r) = rowMax (sample (arrRow x2 r) (arrRow x3 r) (arrRow x5 r)) := by
  have hR : S4096x2048.Reduces [1] S4096 := by decide
  have h0 : val_main_call0_v0 (F := Ideal) x2 x3 x5 (ix1 r) = rowMax (sample (arrRow x2 r) (arrRow x3 r) (arrRow x5 r)) := by
    unfold val_main_call0_v0
    rw [Host.reduce_eq_fold_single FloatOps.maximumf _ _ reducesTo_S4096x2048_S4096_d1 hR h_S_ (ix1 r)]
    unfold rowMax
    show (Finset.univ : Finset (Fin 2048)).fold max (Ideal.ofBits .f32 0xFF800000#32)
        (fun k => val_main_v2 (F := Ideal) x2 x3 x5 (hR.lift (ix1 r) k)) = _
    refine Finset.fold_congr fun k _ => ?_
    rw [lift_eq hR r k]
    rfl
  have h1 : val_main_call0_v1 (F := Ideal) (ix1 r) = Ideal.ofBits .f32 0xFF800000#32 :=
    (val_main_call0_v1_apply (F := Ideal) (ix1 r)).trans rfl
  rw [val_main_call0_v2_apply, h0, h1]
  exact max_init_rowMax _

/-- The row minus its maximum, at an entry. -/
theorem shiftq_apply (k : Fin 2048) : val_main_call0_v5 (F := Ideal) x2 x3 x5 (ix2 r k) = shifted (sample (arrRow x2 r) (arrRow x3 r) (arrRow x5 r)) k := by
  show val_main_v2 (F := Ideal) x2 x3 x5 (ix2 r k) - val_main_call0_v4 (F := Ideal) x2 x3 x5 (ix2 r k) = _
  rw [val_main_call0_v4_apply, val_main_call0_v3_apply,
    show idx_main_call0_v3 (idx_main_call0_v4 (ix2 r k)) = ix1 r from idx_entry_row r k, maxq_apply]
  rfl

/-- The logarithm of the row's sum of exponentials, kept as a column. -/
theorem lseq_apply (u : Fin 1) :
    val_main_call0_v9 (F := Ideal) x2 x3 x5 (ix2 r u) = Ideal.log (∑ j : Fin 2048, Ideal.exp (shifted (sample (arrRow x2 r) (arrRow x3 r) (arrRow x5 r)) j)) := by
  show Ideal.log (val_main_call0_v8 (F := Ideal) x2 x3 x5 (ix2 r u)) = _
  rw [val_main_call0_v8_apply, show idx_main_call0_v8 (ix2 r u) = ix1 r from idx_col_row r u, val_main_call0_v7_apply]
  refine congrArg Ideal.log ?_
  rw [show (val_main_call0_cst_1 (F := Ideal)) (Shape.Idx.first h_S_) = 0 from Ideal.ofBits_zero_f32, zero_add]
  refine Finset.sum_congr rfl fun k _ => ?_
  rw [show idx_main_call0_v7 (ix1 r) k = ix2 r k from idx_row_entry r k]
  show Ideal.exp (val_main_call0_v5 (F := Ideal) x2 x3 x5 (ix2 r k)) = _
  rw [shiftq_apply]

/-- The log-softmax at an entry. -/
theorem lsmq_apply (k : Fin 2048) : val_main_v6 (F := Ideal) x2 x3 x5 (ix2 r k) = logSoftmax (sample (arrRow x2 r) (arrRow x3 r) (arrRow x5 r)) k := by
  show val_main_call0_v5 (F := Ideal) x2 x3 x5 (ix2 r k) - val_main_call0_v10 (F := Ideal) x2 x3 x5 (ix2 r k) = _
  rw [val_main_call0_v10_apply, show idx_main_call0_v10 (ix2 r k) = ix2 r (0 : Fin 1) from idx_entry_col r k,
    lseq_apply, shiftq_apply]
  rfl

/-! ## The prior sample's log-softmax (the call that writes `main_v7`) -/

/-- The prior sample at an entry of row `r`. -/
theorem zp_apply (k : Fin 2048) : val_main_v5 (F := Ideal) x0 x1 x6 (ix2 r k) = (sample (arrRow x0 r) (arrRow x1 r) (arrRow x6 r)) k := rfl

/-- Its row maximum: the reduce is the fold of max over the row from minus infinity, and the maximum with minus
    infinity taken once more changes nothing. -/
theorem maxp_apply : val_main_call1_v2 (F := Ideal) x0 x1 x6 (ix1 r) = rowMax (sample (arrRow x0 r) (arrRow x1 r) (arrRow x6 r)) := by
  have hR : S4096x2048.Reduces [1] S4096 := by decide
  have h0 : val_main_call1_v0 (F := Ideal) x0 x1 x6 (ix1 r) = rowMax (sample (arrRow x0 r) (arrRow x1 r) (arrRow x6 r)) := by
    unfold val_main_call1_v0
    rw [Host.reduce_eq_fold_single FloatOps.maximumf _ _ reducesTo_S4096x2048_S4096_d1 hR h_S_ (ix1 r)]
    unfold rowMax
    show (Finset.univ : Finset (Fin 2048)).fold max (Ideal.ofBits .f32 0xFF800000#32)
        (fun k => val_main_v5 (F := Ideal) x0 x1 x6 (hR.lift (ix1 r) k)) = _
    refine Finset.fold_congr fun k _ => ?_
    rw [lift_eq hR r k]
    rfl
  have h1 : val_main_call1_v1 (F := Ideal) (ix1 r) = Ideal.ofBits .f32 0xFF800000#32 :=
    (val_main_call1_v1_apply (F := Ideal) (ix1 r)).trans rfl
  rw [val_main_call1_v2_apply, h0, h1]
  exact max_init_rowMax _

/-- The row minus its maximum, at an entry. -/
theorem shiftp_apply (k : Fin 2048) : val_main_call1_v5 (F := Ideal) x0 x1 x6 (ix2 r k) = shifted (sample (arrRow x0 r) (arrRow x1 r) (arrRow x6 r)) k := by
  show val_main_v5 (F := Ideal) x0 x1 x6 (ix2 r k) - val_main_call1_v4 (F := Ideal) x0 x1 x6 (ix2 r k) = _
  rw [val_main_call1_v4_apply, val_main_call1_v3_apply,
    show idx_main_call1_v3 (idx_main_call1_v4 (ix2 r k)) = ix1 r from idx_entry_row r k, maxp_apply]
  rfl

/-- The logarithm of the row's sum of exponentials, kept as a column. -/
theorem lsep_apply (u : Fin 1) :
    val_main_call1_v9 (F := Ideal) x0 x1 x6 (ix2 r u) = Ideal.log (∑ j : Fin 2048, Ideal.exp (shifted (sample (arrRow x0 r) (arrRow x1 r) (arrRow x6 r)) j)) := by
  show Ideal.log (val_main_call1_v8 (F := Ideal) x0 x1 x6 (ix2 r u)) = _
  rw [val_main_call1_v8_apply, show idx_main_call1_v8 (ix2 r u) = ix1 r from idx_col_row r u, val_main_call1_v7_apply]
  refine congrArg Ideal.log ?_
  rw [show (val_main_call1_cst_1 (F := Ideal)) (Shape.Idx.first h_S_) = 0 from Ideal.ofBits_zero_f32, zero_add]
  refine Finset.sum_congr rfl fun k _ => ?_
  rw [show idx_main_call1_v7 (ix1 r) k = ix2 r k from idx_row_entry r k]
  show Ideal.exp (val_main_call1_v5 (F := Ideal) x0 x1 x6 (ix2 r k)) = _
  rw [shiftp_apply]

/-- The log-softmax at an entry. -/
theorem lsmp_apply (k : Fin 2048) : val_main_v7 (F := Ideal) x0 x1 x6 (ix2 r k) = logSoftmax (sample (arrRow x0 r) (arrRow x1 r) (arrRow x6 r)) k := by
  show val_main_call1_v5 (F := Ideal) x0 x1 x6 (ix2 r k) - val_main_call1_v10 (F := Ideal) x0 x1 x6 (ix2 r k) = _
  rw [val_main_call1_v10_apply, show idx_main_call1_v10 (ix2 r k) = ix2 r (0 : Fin 1) from idx_entry_col r k,
    lsep_apply, shiftp_apply]
  rfl

/-! ## The row's KL term, log-density and loss -/

/-- The mean over row `r` of p (log p - log q). -/
theorem kl_row : val_main_v13 (F := Ideal) x0 x1 x2 x3 x5 x6 (ix1 r) = kl (sample (arrRow x2 r) (arrRow x3 r) (arrRow x5 r)) (sample (arrRow x0 r) (arrRow x1 r) (arrRow x6 r)) := by
  show Ideal.div (val_main_v11 (F := Ideal) x0 x1 x2 x3 x5 x6 (ix1 r)) (val_main_v12 (F := Ideal) (ix1 r)) = _
  rw [val_main_v11_apply, val_main_v12_apply]
  unfold kl
  refine congrArg (fun s => Ideal.div s (Ideal.ofBits .f32 0x45000000#32)) ?_
  rw [show (val_main_cst (F := Ideal)) (Shape.Idx.first h_S_) = 0 from Ideal.ofBits_zero_f32, zero_add]
  refine Finset.sum_congr rfl fun k _ => ?_
  rw [show idx_main_v11 (ix1 r) k = ix2 r k from idx_row_entry r k]
  show Ideal.exp (val_main_v7 (F := Ideal) x0 x1 x6 (ix2 r k))
      * (val_main_v7 (F := Ideal) x0 x1 x6 (ix2 r k) - val_main_v6 (F := Ideal) x2 x3 x5 (ix2 r k)) = _
  rw [lsmp_apply, lsmq_apply]

/-- The Gaussian log-density of row `r`'s target. -/
theorem logprob_row : val_main_v24 (F := Ideal) x2 x3 x4 (ix1 r) = logProb (arrRow x2 r) (arrRow x3 r) (arrRow x4 r) := by
  show val_main_v23 (F := Ideal) (ix1 r)
      * ((val_main_v16 (F := Ideal) (ix1 r) + val_main_v15 (F := Ideal) x3 (ix1 r)) + val_main_v21 (F := Ideal) x2 x3 x4 (ix1 r)) = _
  have s1 : val_main_v15 (F := Ideal) x3 (ix1 r) = ∑ k : Fin 2048, Ideal.log (arrRow x3 r k) := by
    rw [val_main_v15_apply, show (val_main_cst_1 (F := Ideal)) (Shape.Idx.first h_S_) = 0 from Ideal.ofBits_zero_f32, zero_add]
    refine Finset.sum_congr rfl fun k _ => ?_
    rw [show idx_main_v15 (ix1 r) k = ix2 r k from idx_row_entry r k]
    rfl
  have s2 : val_main_v21 (F := Ideal) x2 x3 x4 (ix1 r)
      = ∑ k : Fin 2048, Ideal.div ((arrRow x4 r k - arrRow x2 r k) * (arrRow x4 r k - arrRow x2 r k)) (arrRow x3 r k) := by
    rw [val_main_v21_apply, show (val_main_cst_3 (F := Ideal)) (Shape.Idx.first h_S_) = 0 from Ideal.ofBits_zero_f32, zero_add]
    refine Finset.sum_congr rfl fun k _ => ?_
    rw [show idx_main_v21 (ix1 r) k = ix2 r k from idx_row_entry r k]
    rfl
  rw [s1, s2, val_main_v23_apply, val_main_v16_apply]
  rfl

/-- ENTRY `r` BEFORE THE FINAL SLICE: the row loss of row `r` of the seven arrays. -/
theorem v28_row : val_main_v28 (F := Ideal) x0 x1 x2 x3 x4 x5 x6 (ix1 r)
    = rowLoss (arrRow x0 r) (arrRow x1 r) (arrRow x2 r) (arrRow x3 r) (arrRow x4 r) (arrRow x5 r) (arrRow x6 r) := by
  show -(Ideal.div (val_main_v24 (F := Ideal) x2 x3 x4 (ix1 r)) (val_main_v25 (F := Ideal) (ix1 r))
      - val_main_v13 (F := Ideal) x0 x1 x2 x3 x5 x6 (ix1 r)) = _
  rw [logprob_row, kl_row, val_main_v25_apply]
  rfl

/-- THE REFERENCE'S RESULT: the last row's loss, as a rank-0 value. -/
theorem v30_eq : val_main_v30 (F := Ideal) x0 x1 x2 x3 x4 x5 x6 = fun _ => lastLoss x0 x1 x2 x3 x4 x5 x6 := by
  funext j
  unfold val_main_v30
  refine (shapeCast_scalar_apply _ shapeCasts_S1_S_ (by decide) j (ix1 (0 : Fin 1))).trans ?_
  rw [val_main_v29_apply,
    show idx_main_v29 (ix1 (0 : Fin 1)) = ix1 (4095 : Fin 4096) from funext fun a => Fin.ext (by match a with | ⟨0, _⟩ => rfl),
    v28_row]
  rfl

end Cert.ReferenceIdeal.RefValue

end
-- ==== Proof.lean ====
/- The kernel and the reference compute one number: the loss of the LAST of 4096 rows.

   For a row of 2048 entries of each of seven arrays (prior mean and variance, mean and variance, target, two
   noises) the row loss is  -(logProb / 2048 - kl):  the two reparameterised samples mean + sqrt(variance) * noise,
   their log-softmaxes along the row, kl the mean over the row of p (log p - log q), logProb the diagonal Gaussian's
   log-density of the target (Proof/RowLoss.lean). The kernel takes 128 rows at each of 32 grid points and stores
   one loss per row; every reduction in its body runs along a row, so the stored column is the column of row losses
   (Proof/KernelRow.lean), the 32 blocks tile it (Proof/KernelArray.lean), and the two host operations after the
   region take its entry (4095, 0). The reference does the same chain on all rows at once and keeps entry 4095
   (Proof/RefRow.lean, over the reference's run and its stages read at an index, Proof/RunP.lean and
   Proof/ReadP.lean). The two sides apply the same operations in the same order at the extended reals; what joins
   them is that a maximum with minus infinity taken once more changes nothing, that zero minus a value is its
   negative, and that a sum started at zero is the sum. No law here needs the inputs to be finite.
   The three frames: the kernel's two programs by their frame certificates; the reference's by its run with the
   result dropped. The idealization rewrote nothing, so its preservation claim is trivially true. -/
import proofs.«102283_j29386166239267_1_alg».proof.Defs
import proofs.«102283_j29386166239267_1_alg».proof.Proof.Gen.Kernel
import proofs.«102283_j29386166239267_1_alg».proof.Proof.Gen.Kernel.Skeleton
import proofs.«102283_j29386166239267_1_alg».proof.Proof.Gen.Kernel.Launch
import proofs.«102283_j29386166239267_1_alg».proof.Proof.Gen.Kernel.Points
import proofs.«102283_j29386166239267_1_alg».proof.Proof.Gen.Kernel.Frame
import proofs.«102283_j29386166239267_1_alg».proof.Proof.Gen.KernelIdeal
import proofs.«102283_j29386166239267_1_alg».proof.Proof.Gen.KernelIdeal.Skeleton
import proofs.«102283_j29386166239267_1_alg».proof.Proof.Gen.KernelIdeal.Launch
import proofs.«102283_j29386166239267_1_alg».proof.Proof.Gen.KernelIdeal.Points
import proofs.«102283_j29386166239267_1_alg».proof.Proof.Gen.KernelIdeal.Frame
import proofs.«102283_j29386166239267_1_alg».proof.Proof.Gen.ReferenceIdeal
import proofs.«102283_j29386166239267_1_alg».proof.Proof.Gen.Pre_finite_inputs
import proofs.«102283_j29386166239267_1_alg».proof.Proof.KernelArray
import proofs.«102283_j29386166239267_1_alg».proof.Proof.RefRow
import Idealize.ShloMosaic.Adequacy
import Idealize.ShloMosaic.Init

noncomputable section

namespace Cert.Proof

open Idealize.ShloMosaic Idealize.ShloMosaic.TcCoe Idealize.SL.Sem

/-- The word-level kernel runs and keeps its arguments. -/
theorem frame_k : Cert.frame_Kernel := fun m ρ _ => Cert.Kernel.Gen.frame m ρ

/-- So does the kernel read at the extended reals. -/
theorem frame_ki : Cert.frame_KernelIdeal := fun m ρ _ => Cert.KernelIdeal.Gen.frame m ρ

/-- The reference runs and keeps its arguments: its run, with the result dropped. -/
theorem frame_ri : Cert.frame_ReferenceIdeal := fun m ρ _ =>
  (θ_run Cert.ReferenceIdeal.defs _ _).mono (fun _ h c => (h c).2) (Cert.ReferenceIdeal.ValueP.run (F := Ideal) m ρ)

/-- Both programs end with the last row's loss of the argument arrays: the kernel's run read through its blocks
    and its host tail, the reference's run read stage by stage, the arguments' agreement rewritten. -/
theorem algebraic : Cert.algebraic_KernelIdeal_ReferenceIdeal := by
  intro m ρ m' ρ' _ hagree
  refine ⟨fun c => fun _ => Cert.RowLoss.lastLoss
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5))
      (m ((c.tc : Thread Cert.KernelIdeal.nD Cert.KernelIdeal.τ).loc Cert.KernelIdeal.main_arg6)),
    Cert.KernelIdeal.ArrayValue.kernel_run m ρ, ?_⟩
  refine (θ_run Cert.ReferenceIdeal.defs _ _).mono (fun _ h c => ⟨(h c).1.trans ?_, (h c).2⟩)
    (Cert.ReferenceIdeal.ValueP.run (F := Ideal) m' ρ')
  rw [Cert.ReferenceIdeal.ReadP.val_main_v30_eq, Cert.ReferenceIdeal.RefValue.v30_eq,
    (hagree c).1, (hagree c).2.1, (hagree c).2.2.1, (hagree c).2.2.2.1, (hagree c).2.2.2.2.1,
    (hagree c).2.2.2.2.2.1, (hagree c).2.2.2.2.2.2]
  rfl

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
